-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256x256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S512 : Shape := ⟨1, ![512]⟩
abbrev S1x512 : Shape := ⟨2, ![1, 512]⟩
abbrev S1x256 : Shape := ⟨2, ![1, 256]⟩
abbrev S4096x256 : Shape := ⟨2, ![4096, 256]⟩
abbrev S4096x768 : Shape := ⟨2, ![4096, 768]⟩
abbrev S4096x512 : Shape := ⟨2, ![4096, 512]⟩

abbrev nBuf : Space → Nat
  | .hbm => 17
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x768, .f32⟩
  | .hbm, ⟨12, _⟩ => ⟨S256x512, .f32⟩
  | .hbm, ⟨13, _⟩ => ⟨S512, .f32⟩
  | .hbm, ⟨14, _⟩ => ⟨S1x512, .f32⟩
  | .hbm, ⟨15, _⟩ => ⟨S1x256, .f32⟩
  | .hbm, ⟨16, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x768, .f32⟩
  | .local _ .vmem, ⟨5, _⟩ => ⟨S256x512, .f32⟩
  | .local _ .vmem, ⟨6, _⟩ => ⟨S256x256, .f32⟩
  | .local _ .vmem, ⟨7, _⟩ => ⟨S1x512, .f32⟩
  | .local _ .vmem, ⟨8, _⟩ => ⟨S1x256, .f32⟩
  | .local _ .vmem, ⟨9, _⟩ => ⟨S4096x256, .f32⟩
  | .local _ .vmem, ⟨10, _⟩ => ⟨S4096x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x768_d1 : Shape.Concatenates [S256x256, S256x256, S256x256] S256x768 1
  concatenates_S256x256_S256x256_S256x512_d1 : Shape.Concatenates [S256x256, S256x256] S256x512 1
  concatenates_S256_S256_S512_d0 : Shape.Concatenates [S256, S256] S512 0
  shapeCasts_S512_S1x512 : S512.ShapeCasts S1x512
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S4096x768_o0_0_S4096x512 : S4096x768.Slices ![0, 0] S4096x512
  broadcasts_S1x512_S4096x512 : S1x512.Broadcasts S4096x512
  slices_S4096x512_o0_0_S4096x256 : S4096x512.Slices ![0, 0] S4096x256
  slices_S4096x512_o0_256_S4096x256 : S4096x512.Slices ![0, 256] S4096x256
  slices_S4096x768_o0_512_S4096x256 : S4096x768.Slices ![0, 512] S4096x256
  broadcasts_S1x256_S4096x256 : S1x256.Broadcasts S4096x256
  dot_S4096x256_S256x768_S4096x768_1_0_0_1_n_n_wf : DotDims.WF S4096x256 S256x768 S4096x768 [1] [0] [0] [1] [] []
  dot_S4096x256_S256x512_S4096x512_1_0_0_1_n_n_wf : DotDims.WF S4096x256 S256x512 S4096x512 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S65536x256.size a
  hwx0_7 : ∀ i : grid0.Coords, EltTy.bits .f32 = 32 ∨ (Rect.block (s := S65536x256) S4096x256.size (cc0_transform_7 i) (hinb0_7 i)).WholeWords (EltTy.packing .f32)

variable [Facts₀]

def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S1x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.RegionBits.lean ====
/-
  The program's one region, run: the GRU cell's single launch over 16 row blocks of 4096 rows.

  Before the launch the host lays the weights side by side — `[Wz | Wr | Wh]` (256 × 768), `[Uz | Ur]` (256 × 512), the
  biases `[bz | br]` as a 1 × 512 row and `bh` as a 1 × 256 row — and writes none of the eleven arguments. At grid point
  `t` the body reads block `t` of `x` and of `h` (4096 × 256 each) and the five weight and bias arrays whole, and stores
  ONE value over the whole 4096 × 256 output block; it keeps nothing between points. So what the output block holds
  after the body is that one stored value as a function of the seven blocks read (`stored`), every input block is left
  as found, and the launch theorem for such a region gives the run: every argument array ends as launched and the
  result array is what the sixteen blocks written back make of it.

  Everything is stated at any float instance `F`; nothing here looks inside the arithmetic.
-/
import proofs.«423816_j44367012168293_3_alg».proof.Proof.Gen.Kernel.Launch
import proofs.«423816_j44367012168293_3_alg».proof.Proof.Gen.Kernel.Skeleton
import proofs.«423816_j44367012168293_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the region is entered: the launch memory after the five layout operations of the prefix
    (three concatenations, two reshapes). -/
abbrev V (c : Dev nD) (b : Ref sig .tc) : Buf (Elt F) ((c : Thread nD τ).loc b) :=
  StableHlo.after hostOps0 (fun b => m (c, b)) b

/-- None of the five allocates. -/
theorem prefix_fresh : (hostOps0 : List (HloOp τ sig (Elt F))).Forall fun op => op.fresh = ∅ := by
  simp only [List.Forall]; repeat' constructor

/-- The program is its prefix followed by the launch, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prefix_fresh main_chain

/-- Each operation of the prefix writes one of `main_v0 … main_v4`, never an argument: the five results are other
    buffers than the one asked about. -/
local macro "prefix_keeps" : tactic =>
  `(tactic| (simp only [hostOps0, List.Forall, StableHlo.nary_writes, StableHlo.binary_writes, StableHlo.reshape_writes, Finset.mem_singleton] ;
              (repeat' apply And.intro) ;
              all_goals exact StableHlo.devRef_ne_of_ne (by decide)))

/-- No operation of the prefix writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by prefix_keeps))
/-- No operation of the prefix writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
/-- No operation of the prefix writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
/-- No operation of the prefix writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
/-- No operation of the prefix writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
/-- No operation of the prefix writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by prefix_keeps))
/-- No operation of the prefix writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by prefix_keeps))
/-- No operation of the prefix writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by prefix_keeps))
/-- No operation of the prefix writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by prefix_keeps))
/-- No operation of the prefix writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by prefix_keeps))
/-- No operation of the prefix writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by prefix_keeps))

/-! ## The blocks the body reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: the two row-block windows
    are fetched at every point, and the five whole-array windows at the first point only, after which their block index
    does not move and the body leaves the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rX : Rect S4096x256 := Rect.unit (s := S4096x256) ![0, 0] S4096x256.size inb_S4096x256_S4096x256_0_0
abbrev rW : Rect S256x768 := Rect.unit (s := S256x768) ![0, 0] S256x768.size inb_S256x768_S256x768_0_0
abbrev rU : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S1x512 := Rect.unit (s := S1x512) ![0, 0] S1x512.size inb_S1x512_S1x512_0_0
abbrev rBh : Rect S1x256 := Rect.unit (s := S1x256) ![0, 0] S1x256.size inb_S1x256_S1x256_0_0

/-- The output block after the body, from the seven blocks read: its one store, over the whole block, of the
    body's value at the seven loads (each load the whole of its block). -/
def stored (x0 : Vec F S4096x256 .f32) (x1 : Vec F S4096x256 .f32) (x2 : Vec F S256x768 .f32) (x3 : Vec F S256x512 .f32) (x4 : Vec F S256x256 .f32) (x5 : Vec F S1x512 .f32) (x6 : Vec F S1x256 .f32) : Vec F S4096x256 .f32 :=
  View.canon [⟨rX, k0_pay1 (View.ld x0 rX) (View.ld x1 rX) (View.ld x2 rW) (View.ld x3 rU) (View.ld x4 rUh) (View.ld x5 rBzr) (View.ld x6 rBh)⟩]

/-- The one store covers the block. -/
theorem stored_cover (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body's triple -/

set_option maxHeartbeats 1000000 in
/-- The body on whole staging buffers — the seven inputs' at contents `x0 … x6`, the output's at anything — runs to a
    state holding the inputs' as they were and the output's at `stored x0 … x6`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S256x768 .f32) (harg3 : arg3.IsWhole) (arg4 : Memref sig .tc .vmem S256x512 .f32) (harg4 : arg4.IsWhole)
    (arg5 : Memref sig .tc .vmem S256x256 .f32) (harg5 : arg5.IsWhole) (arg6 : Memref sig .tc .vmem S1x512 .f32) (harg6 : arg6.IsWhole)
    (arg7 : Memref sig .tc .vmem S1x256 .f32) (harg7 : arg7.IsWhole) (arg8 : Memref sig .tc .vmem S4096x256 .f32) (harg8 : arg8.IsWhole)
    (x0 : Vec F S4096x256 .f32) (x1 : Vec F S4096x256 .f32) (x2 : Vec F S256x768 .f32) (x3 : Vec F S256x512 .f32) (x4 : Vec F S256x256 .f32) (x5 : Vec F S1x512 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_cover _)

/-! ## The proof data of the launch -/

/-- On core `c`: the arrays as the region finds them; after the body at point `t` each input's buffer at its block
    and the output's at `stored` of the seven input blocks; the invariant that of a body with nothing of its own;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = stored (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each window's array at what the proof data makes of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arrays after the run -/

section Post
variable (r : PUnit × MemSt nD τ sig (Elt F)) (h : Pipeline.FramePost cfgs (dats m) 0 (V m) r) (c : Dev nD)
include h

/-- The result array is what the blocks written back make of it. -/
theorem post_result : r.2.mem ((c : Thread nD τ).loc main_v5) = (dats m 0 c).arrAt 7 cfg0.N := (h c).1 7

/-- `x`, `h` and `Uh` are staged by input windows, which never write back; the other eight arguments no window stages. -/
theorem kept0 : r.2.mem ((c : Thread nD τ).loc main_arg0) = m ((c : Thread nD τ).loc main_arg0) :=
  ((h c).1 0).trans (((dats m 0 c).arrAt_in 0 rfl _).trans ((A_eq m c 0).trans (V_main_arg0 m c)))
theorem kept1 : r.2.mem ((c : Thread nD τ).loc main_arg1) = m ((c : Thread nD τ).loc main_arg1) :=
  ((h c).1 1).trans (((dats m 0 c).arrAt_in 1 rfl _).trans ((A_eq m c 1).trans (V_main_arg1 m c)))
theorem kept9 : r.2.mem ((c : Thread nD τ).loc main_arg9) = m ((c : Thread nD τ).loc main_arg9) :=
  ((h c).1 4).trans (((dats m 0 c).arrAt_in 4 rfl _).trans ((A_eq m c 4).trans (V_main_arg9 m c)))
theorem kept2 : r.2.mem ((c : Thread nD τ).loc main_arg2) = m ((c : Thread nD τ).loc main_arg2) :=
  ((h c).2 main_arg2 (Pipeline.mem_restRefs_of main_arg2 (by decide) (by decide))).trans (V_main_arg2 m c)
theorem kept3 : r.2.mem ((c : Thread nD τ).loc main_arg3) = m ((c : Thread nD τ).loc main_arg3) :=
  ((h c).2 main_arg3 (Pipeline.mem_restRefs_of main_arg3 (by decide) (by decide))).trans (V_main_arg3 m c)
theorem kept4 : r.2.mem ((c : Thread nD τ).loc main_arg4) = m ((c : Thread nD τ).loc main_arg4) :=
  ((h c).2 main_arg4 (Pipeline.mem_restRefs_of main_arg4 (by decide) (by decide))).trans (V_main_arg4 m c)
theorem kept5 : r.2.mem ((c : Thread nD τ).loc main_arg5) = m ((c : Thread nD τ).loc main_arg5) :=
  ((h c).2 main_arg5 (Pipeline.mem_restRefs_of main_arg5 (by decide) (by decide))).trans (V_main_arg5 m c)
theorem kept6 : r.2.mem ((c : Thread nD τ).loc main_arg6) = m ((c : Thread nD τ).loc main_arg6) :=
  ((h c).2 main_arg6 (Pipeline.mem_restRefs_of main_arg6 (by decide) (by decide))).trans (V_main_arg6 m c)
theorem kept7 : r.2.mem ((c : Thread nD τ).loc main_arg7) = m ((c : Thread nD τ).loc main_arg7) :=
  ((h c).2 main_arg7 (Pipeline.mem_restRefs_of main_arg7 (by decide) (by decide))).trans (V_main_arg7 m c)
theorem kept8 : r.2.mem ((c : Thread nD τ).loc main_arg8) = m ((c : Thread nD τ).loc main_arg8) :=
  ((h c).2 main_arg8 (Pipeline.mem_restRefs_of main_arg8 (by decide) (by decide))).trans (V_main_arg8 m c)
theorem kept10 : r.2.mem ((c : Thread nD τ).loc main_arg10) = m ((c : Thread nD τ).loc main_arg10) :=
  ((h c).2 main_arg10 (Pipeline.mem_restRefs_of main_arg10 (by decide) (by decide))).trans (V_main_arg10 m c)

end Post

/-- The run with the result array named and the eleven arguments unchanged. -/
theorem run_blocks : θ_run defs (onTc (τ := τ) (main (F := F))) ⟨m, fun _ => 0, ρ⟩ fun r => ∀ c : Dev nD,
      r.2.mem ((c : Thread nD τ).loc main_v5) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post_result m r h c, kept0 m r h c, kept1 m r h c, kept2 m r h c, kept3 m r h c, kept4 m r h c,
      kept5 m r h c, kept6 m r h c, kept7 m r h c, kept8 m r h c, kept9 m r h c, kept10 m r h c⟩)
    (run_main m ρ)

/-- The frame: the program runs to the end and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_blocks m ρ)

end Cert.Kernel.Region

end
-- ==== Proof.RegionIdeal.lean ====
/-
  The program's one region, run: the GRU cell's single launch over 16 row blocks of 4096 rows.

  Before the launch the host lays the weights side by side — `[Wz | Wr | Wh]` (256 × 768), `[Uz | Ur]` (256 × 512), the
  biases `[bz | br]` as a 1 × 512 row and `bh` as a 1 × 256 row — and writes none of the eleven arguments. At grid point
  `t` the body reads block `t` of `x` and of `h` (4096 × 256 each) and the five weight and bias arrays whole, and stores
  ONE value over the whole 4096 × 256 output block; it keeps nothing between points. So what the output block holds
  after the body is that one stored value as a function of the seven blocks read (`stored`), every input block is left
  as found, and the launch theorem for such a region gives the run: every argument array ends as launched and the
  result array is what the sixteen blocks written back make of it.

  Everything is stated at any float instance `F`; nothing here looks inside the arithmetic.
-/
import proofs.«423816_j44367012168293_3_alg».proof.Proof.Gen.KernelIdeal.Launch
import proofs.«423816_j44367012168293_3_alg».proof.Proof.Gen.KernelIdeal.Skeleton
import proofs.«423816_j44367012168293_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the region is entered: the launch memory after the five layout operations of the prefix
    (three concatenations, two reshapes). -/
abbrev V (c : Dev nD) (b : Ref sig .tc) : Buf (Elt F) ((c : Thread nD τ).loc b) :=
  StableHlo.after hostOps0 (fun b => m (c, b)) b

/-- None of the five allocates. -/
theorem prefix_fresh : (hostOps0 : List (HloOp τ sig (Elt F))).Forall fun op => op.fresh = ∅ := by
  simp only [List.Forall]; repeat' constructor

/-- The program is its prefix followed by the launch, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prefix_fresh main_chain

/-- Each operation of the prefix writes one of `main_v0 … main_v4`, never an argument: the five results are other
    buffers than the one asked about. -/
local macro "prefix_keeps" : tactic =>
  `(tactic| (simp only [hostOps0, List.Forall, StableHlo.nary_writes, StableHlo.binary_writes, StableHlo.reshape_writes, Finset.mem_singleton] ;
              (repeat' apply And.intro) ;
              all_goals exact StableHlo.devRef_ne_of_ne (by decide)))

/-- No operation of the prefix writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by prefix_keeps))
/-- No operation of the prefix writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
/-- No operation of the prefix writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
/-- No operation of the prefix writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
/-- No operation of the prefix writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
/-- No operation of the prefix writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by prefix_keeps))
/-- No operation of the prefix writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by prefix_keeps))
/-- No operation of the prefix writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by prefix_keeps))
/-- No operation of the prefix writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by prefix_keeps))
/-- No operation of the prefix writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by prefix_keeps))
/-- No operation of the prefix writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by prefix_keeps))

/-! ## The blocks the body reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: the two row-block windows
    are fetched at every point, and the five whole-array windows at the first point only, after which their block index
    does not move and the body leaves the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rX : Rect S4096x256 := Rect.unit (s := S4096x256) ![0, 0] S4096x256.size inb_S4096x256_S4096x256_0_0
abbrev rW : Rect S256x768 := Rect.unit (s := S256x768) ![0, 0] S256x768.size inb_S256x768_S256x768_0_0
abbrev rU : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S1x512 := Rect.unit (s := S1x512) ![0, 0] S1x512.size inb_S1x512_S1x512_0_0
abbrev rBh : Rect S1x256 := Rect.unit (s := S1x256) ![0, 0] S1x256.size inb_S1x256_S1x256_0_0

/-- The output block after the body, from the seven blocks read: its one store, over the whole block, of the
    body's value at the seven loads (each load the whole of its block). -/
def stored (x0 : Vec F S4096x256 .f32) (x1 : Vec F S4096x256 .f32) (x2 : Vec F S256x768 .f32) (x3 : Vec F S256x512 .f32) (x4 : Vec F S256x256 .f32) (x5 : Vec F S1x512 .f32) (x6 : Vec F S1x256 .f32) : Vec F S4096x256 .f32 :=
  View.canon [⟨rX, k0_pay1 (View.ld x0 rX) (View.ld x1 rX) (View.ld x2 rW) (View.ld x3 rU) (View.ld x4 rUh) (View.ld x5 rBzr) (View.ld x6 rBh)⟩]

/-- The one store covers the block. -/
theorem stored_cover (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body's triple -/

set_option maxHeartbeats 1000000 in
/-- The body on whole staging buffers — the seven inputs' at contents `x0 … x6`, the output's at anything — runs to a
    state holding the inputs' as they were and the output's at `stored x0 … x6`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S256x768 .f32) (harg3 : arg3.IsWhole) (arg4 : Memref sig .tc .vmem S256x512 .f32) (harg4 : arg4.IsWhole)
    (arg5 : Memref sig .tc .vmem S256x256 .f32) (harg5 : arg5.IsWhole) (arg6 : Memref sig .tc .vmem S1x512 .f32) (harg6 : arg6.IsWhole)
    (arg7 : Memref sig .tc .vmem S1x256 .f32) (harg7 : arg7.IsWhole) (arg8 : Memref sig .tc .vmem S4096x256 .f32) (harg8 : arg8.IsWhole)
    (x0 : Vec F S4096x256 .f32) (x1 : Vec F S4096x256 .f32) (x2 : Vec F S256x768 .f32) (x3 : Vec F S256x512 .f32) (x4 : Vec F S256x256 .f32) (x5 : Vec F S1x512 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_cover _)

/-! ## The proof data of the launch -/

/-- On core `c`: the arrays as the region finds them; after the body at point `t` each input's buffer at its block
    and the output's at `stored` of the seven input blocks; the invariant that of a body with nothing of its own;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = stored (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each window's array at what the proof data makes of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arrays after the run -/

section Post
variable (r : PUnit × MemSt nD τ sig (Elt F)) (h : Pipeline.FramePost cfgs (dats m) 0 (V m) r) (c : Dev nD)
include h

/-- The result array is what the blocks written back make of it. -/
theorem post_result : r.2.mem ((c : Thread nD τ).loc main_v5) = (dats m 0 c).arrAt 7 cfg0.N := (h c).1 7

/-- `x`, `h` and `Uh` are staged by input windows, which never write back; the other eight arguments no window stages. -/
theorem kept0 : r.2.mem ((c : Thread nD τ).loc main_arg0) = m ((c : Thread nD τ).loc main_arg0) :=
  ((h c).1 0).trans (((dats m 0 c).arrAt_in 0 rfl _).trans ((A_eq m c 0).trans (V_main_arg0 m c)))
theorem kept1 : r.2.mem ((c : Thread nD τ).loc main_arg1) = m ((c : Thread nD τ).loc main_arg1) :=
  ((h c).1 1).trans (((dats m 0 c).arrAt_in 1 rfl _).trans ((A_eq m c 1).trans (V_main_arg1 m c)))
theorem kept9 : r.2.mem ((c : Thread nD τ).loc main_arg9) = m ((c : Thread nD τ).loc main_arg9) :=
  ((h c).1 4).trans (((dats m 0 c).arrAt_in 4 rfl _).trans ((A_eq m c 4).trans (V_main_arg9 m c)))
theorem kept2 : r.2.mem ((c : Thread nD τ).loc main_arg2) = m ((c : Thread nD τ).loc main_arg2) :=
  ((h c).2 main_arg2 (Pipeline.mem_restRefs_of main_arg2 (by decide) (by decide))).trans (V_main_arg2 m c)
theorem kept3 : r.2.mem ((c : Thread nD τ).loc main_arg3) = m ((c : Thread nD τ).loc main_arg3) :=
  ((h c).2 main_arg3 (Pipeline.mem_restRefs_of main_arg3 (by decide) (by decide))).trans (V_main_arg3 m c)
theorem kept4 : r.2.mem ((c : Thread nD τ).loc main_arg4) = m ((c : Thread nD τ).loc main_arg4) :=
  ((h c).2 main_arg4 (Pipeline.mem_restRefs_of main_arg4 (by decide) (by decide))).trans (V_main_arg4 m c)
theorem kept5 : r.2.mem ((c : Thread nD τ).loc main_arg5) = m ((c : Thread nD τ).loc main_arg5) :=
  ((h c).2 main_arg5 (Pipeline.mem_restRefs_of main_arg5 (by decide) (by decide))).trans (V_main_arg5 m c)
theorem kept6 : r.2.mem ((c : Thread nD τ).loc main_arg6) = m ((c : Thread nD τ).loc main_arg6) :=
  ((h c).2 main_arg6 (Pipeline.mem_restRefs_of main_arg6 (by decide) (by decide))).trans (V_main_arg6 m c)
theorem kept7 : r.2.mem ((c : Thread nD τ).loc main_arg7) = m ((c : Thread nD τ).loc main_arg7) :=
  ((h c).2 main_arg7 (Pipeline.mem_restRefs_of main_arg7 (by decide) (by decide))).trans (V_main_arg7 m c)
theorem kept8 : r.2.mem ((c : Thread nD τ).loc main_arg8) = m ((c : Thread nD τ).loc main_arg8) :=
  ((h c).2 main_arg8 (Pipeline.mem_restRefs_of main_arg8 (by decide) (by decide))).trans (V_main_arg8 m c)
theorem kept10 : r.2.mem ((c : Thread nD τ).loc main_arg10) = m ((c : Thread nD τ).loc main_arg10) :=
  ((h c).2 main_arg10 (Pipeline.mem_restRefs_of main_arg10 (by decide) (by decide))).trans (V_main_arg10 m c)

end Post

/-- The run with the result array named and the eleven arguments unchanged. -/
theorem run_blocks : θ_run defs (onTc (τ := τ) (main (F := F))) ⟨m, fun _ => 0, ρ⟩ fun r => ∀ c : Dev nD,
      r.2.mem ((c : Thread nD τ).loc main_v5) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post_result m r h c, kept0 m r h c, kept1 m r h c, kept2 m r h c, kept3 m r h c, kept4 m r h c,
      kept5 m r h c, kept6 m r h c, kept7 m r h c, kept8 m r h c, kept9 m r h c, kept10 m r h c⟩)
    (run_main m ρ)

/-- The frame: the program runs to the end and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_blocks m ρ)

end Cert.KernelIdeal.Region

end
-- ==== Proof.GruSpec.lean ====
/-
  The GRU cell as ONE function of its eleven arrays, on the extended reals.

  For a row of `x` and the same row of `h` (256 entries each) and column `q`:
    z q  = σ ((x · Wz[:, q] + h · Uz[:, q]) + bz q)                          the update gate,
    r k  = σ ((x · Wr[:, k] + h · Ur[:, k]) + br k)                          the reset gate,
    ĥ q  = tanh ((x · Wh[:, q] + (r ∘ h) · Uh[:, q]) + bh q)                 the candidate,
    out q = z q · h q + (1 − z q) · ĥ q,
  each dot product a sum over the 256 entries in their order, each sum of three terms grouped as written, and σ the
  extended reals' logistic function `1 / (1 + e^(−a))`. The two programs compute exactly this, so no law of
  arithmetic is needed to join them, and nothing here asks the entries to be finite.
-/
import Idealize.ShloMosaic.PureOps.Ideal
import Idealize.ShloMosaic.Lib.ValueIdx

noncomputable section

namespace Cert.Gru

open Idealize.ShloMosaic Idealize.ShloMosaic.ValueIdx
open scoped BigOperators

/-- A gate's pre-activation in one row: the two dot products added, then the bias. -/
def pre (xr hr : Fin 256 → EReal) (W U : Fin 256 → Fin 256 → EReal) (b : Fin 256 → EReal) (q : Fin 256) : EReal :=
  (∑ k : Fin 256, xr k * W k q + ∑ k : Fin 256, hr k * U k q) + b q

/-- The candidate in one row, given the row's reset gate `r`. -/
def cand (xr hr r : Fin 256 → EReal) (Wh Uh : Fin 256 → Fin 256 → EReal) (bh : Fin 256 → EReal) (q : Fin 256) : EReal :=
  Ideal.tanh ((∑ k : Fin 256, xr k * Wh k q + ∑ k : Fin 256, (r k * hr k) * Uh k q) + bh q)

/-- One entry of the new hidden state from its row of `x` and of `h`. -/
def cell (xr hr : Fin 256 → EReal) (Wz Uz Wr Ur Wh Uh : Fin 256 → Fin 256 → EReal) (bz br bh : Fin 256 → EReal) (q : Fin 256) : EReal :=
  Ideal.logistic (pre xr hr Wz Uz bz q) * hr q
    + (1 - Ideal.logistic (pre xr hr Wz Uz bz q))
      * cand xr hr (fun k => Ideal.logistic (pre xr hr Wr Ur br k)) Wh Uh bh q

/-- The arrays' shapes: 65536 rows of 256, a 256 × 256 weight, a bias of 256. -/
abbrev Rows : Shape := ⟨2, ![65536, 256]⟩
abbrev Sq : Shape := ⟨2, ![256, 256]⟩
abbrev Col : Shape := ⟨1, ![256]⟩

/-- The whole new hidden state, index by index, of the eleven arrays in the programs' argument order
    `x, h, Wz, Uz, bz, Wr, Ur, br, Wh, Uh, bh`. -/
def gru (X H : Rows.Idx → EReal) (Wz Uz : Sq.Idx → EReal) (bz : Col.Idx → EReal) (Wr Ur : Sq.Idx → EReal) (br : Col.Idx → EReal)
    (Wh Uh : Sq.Idx → EReal) (bh : Col.Idx → EReal) : Rows.Idx → EReal := fun i =>
  cell (fun k => X (ix2 (n0 := 65536) (n1 := 256) (i 0) k)) (fun k => H (ix2 (n0 := 65536) (n1 := 256) (i 0) k))
    (fun k q => Wz (ix2 k q)) (fun k q => Uz (ix2 k q)) (fun k q => Wr (ix2 k q)) (fun k q => Ur (ix2 k q))
    (fun k q => Wh (ix2 k q)) (fun k q => Uh (ix2 k q))
    (fun q => bz (ix1 q)) (fun q => br (ix1 q)) (fun q => bh (ix1 q)) (i 1)

/-- At row `a`, column `b`: the cell of row `a` of `x` and of `h`, at column `b`. -/
theorem gru_apply (X H : Rows.Idx → EReal) (Wz Uz : Sq.Idx → EReal) (bz : Col.Idx → EReal) (Wr Ur : Sq.Idx → EReal) (br : Col.Idx → EReal)
    (Wh Uh : Sq.Idx → EReal) (bh : Col.Idx → EReal) (a : Fin 65536) (b : Fin 256) :
    gru X H Wz Uz bz Wr Ur br Wh Uh bh (ix2 a b)
      = cell (fun k => X (ix2 a k)) (fun k => H (ix2 a k))
          (fun k q => Wz (ix2 k q)) (fun k q => Uz (ix2 k q)) (fun k q => Wr (ix2 k q)) (fun k q => Ur (ix2 k q))
          (fun k q => Wh (ix2 k q)) (fun k q => Uh (ix2 k q))
          (fun q => bz (ix1 q)) (fun q => br (ix1 q)) (fun q => bh (ix1 q)) b := rfl

/-- The cell depends on its weights and biases only through their entries. -/
theorem cell_congr {xr hr : Fin 256 → EReal} {Wz Uz Wr Ur Wh Uh Wz' Uz' Wr' Ur' Wh' Uh' : Fin 256 → Fin 256 → EReal}
    {bz br bh bz' br' bh' : Fin 256 → EReal}
    (h1 : ∀ k q, Wz k q = Wz' k q) (h2 : ∀ k q, Uz k q = Uz' k q) (h3 : ∀ k q, Wr k q = Wr' k q) (h4 : ∀ k q, Ur k q = Ur' k q)
    (h5 : ∀ k q, Wh k q = Wh' k q) (h6 : ∀ k q, Uh k q = Uh' k q) (h7 : ∀ q, bz q = bz' q) (h8 : ∀ q, br q = br' q) (h9 : ∀ q, bh q = bh' q)
    (q : Fin 256) :
    cell xr hr Wz Uz Wr Ur Wh Uh bz br bh q = cell xr hr Wz' Uz' Wr' Ur' Wh' Uh' bz' br' bh' q := by
  have e1 : Wz = Wz' := funext fun k => funext (h1 k)
  have e2 : Uz = Uz' := funext fun k => funext (h2 k)
  have e3 : Wr = Wr' := funext fun k => funext (h3 k)
  have e4 : Ur = Ur' := funext fun k => funext (h4 k)
  have e5 : Wh = Wh' := funext fun k => funext (h5 k)
  have e6 : Uh = Uh' := funext fun k => funext (h6 k)
  have e7 : bz = bz' := funext h7
  have e8 : br = br' := funext h8
  have e9 : bh = bh' := funext h9
  rw [e1, e2, e3, e4, e5, e6, e7, e8, e9]

end Cert.Gru

end
-- ==== Proof.KernelCell.lean ====
/-
  What the body stores, entry by entry, on the extended reals.

  The body multiplies its row block of `x` into the 768-column array `[Wz | Wr | Wh]` and its row block of `h` into the
  512-column array `[Uz | Ur]` — a matrix product into a zero accumulator is the plain sum over the 256 entries —, takes
  the first 512 columns of the first product, adds the second and the bias row `[bz | br]`, and applies the logistic
  function: columns `0 … 255` of that are the update gate `z`, columns `256 … 511` the reset gate `r`. The candidate is
  tanh of columns `512 … 767` of the first product plus `(r ∘ h)` times `Uh` plus the bias row `bh`, and the stored value
  is `z ∘ h + (1 − z) ∘ ĥ`. Read at row `p`, column `q`, this is `Cert.Gru.cell` of row `p` of the two blocks with the
  weights and biases taken from the panels of the fused arrays: panel `j` of a fused array is its columns
  `256 j … 256 j + 255`.
-/
import proofs.«423816_j44367012168293_3_alg».proof.Proof.Gen.KernelIdeal.Skeleton
import proofs.«423816_j44367012168293_3_alg».proof.Proof.GruSpec
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen
open Idealize.ShloMosaic Idealize.ShloMosaic.ValueIdx Cert.Gru
open scoped BigOperators

/-! ## Columns of the panels -/

/-- Column `n` of panel 0, 1, 2 of a 768-column array, and of panel 0, 1 of a 512-column one; a column of the first
    512 as a column of the 768. -/
abbrev c0 (n : Fin 256) : Fin 768 := ⟨n.val, Nat.lt_of_lt_of_le n.isLt (by decide)⟩
abbrev c1 (n : Fin 256) : Fin 768 := ⟨256 + n.val, by have := n.isLt; omega⟩
abbrev c2 (n : Fin 256) : Fin 768 := ⟨512 + n.val, by have := n.isLt; omega⟩
abbrev d0 (n : Fin 256) : Fin 512 := ⟨n.val, Nat.lt_of_lt_of_le n.isLt (by decide)⟩
abbrev d1 (n : Fin 256) : Fin 512 := ⟨256 + n.val, by have := n.isLt; omega⟩
abbrev e0 (n : Fin 512) : Fin 768 := ⟨n.val, Nat.lt_of_lt_of_le n.isLt (by decide)⟩

/-! ## The three matrix products at an entry -/

/-! The product into 768 columns: its four index facts, axis by axis, then the sum. -/
theorem lhsW_0 (i : S4096x768.Idx) (q : dot_S4096x256_S256x768_S4096x768_1_0_0_1_n_n.contr.Idx) :
    (dot_S4096x256_S256x768_S4096x768_1_0_0_1_n_n.lhsIdx i q 0).val = (i 0).val := by
  unfold DotDims.lhsIdx
  rw [dif_neg (show ¬(0 : Fin S4096x256.rank) ∈ dot_S4096x256_S256x768_S4096x768_1_0_0_1_n_n.lhsBatch by decide), dif_pos (show (0 : Fin S4096x256.rank) ∈ dot_S4096x256_S256x768_S4096x768_1_0_0_1_n_n.lhsNonContracting by decide)]
  rfl
theorem lhsW_1 (i : S4096x768.Idx) (q : dot_S4096x256_S256x768_S4096x768_1_0_0_1_n_n.contr.Idx) :
    (dot_S4096x256_S256x768_S4096x768_1_0_0_1_n_n.lhsIdx i q 1).val = (q ⟨0, by decide⟩).val :=
  dot_S4096x256_S256x768_S4096x768_1_0_0_1_n_n.lhsIdx_val_of_single rfl i q
theorem rhsW_0 (i : S4096x768.Idx) (q : dot_S4096x256_S256x768_S4096x768_1_0_0_1_n_n.contr.Idx) :
    (dot_S4096x256_S256x768_S4096x768_1_0_0_1_n_n.rhsIdx i q 0).val = (q ⟨0, by decide⟩).val :=
  dot_S4096x256_S256x768_S4096x768_1_0_0_1_n_n.rhsIdx_val_of_single rfl i q
theorem rhsW_1 (i : S4096x768.Idx) (q : dot_S4096x256_S256x768_S4096x768_1_0_0_1_n_n.contr.Idx) :
    (dot_S4096x256_S256x768_S4096x768_1_0_0_1_n_n.rhsIdx i q 1).val = (i 1).val := by
  unfold DotDims.rhsIdx
  rw [dif_neg (show ¬(1 : Fin S256x768.rank) ∈ dot_S4096x256_S256x768_S4096x768_1_0_0_1_n_n.rhsBatch by decide), dif_pos (show (1 : Fin S256x768.rank) ∈ dot_S4096x256_S256x768_S4096x768_1_0_0_1_n_n.rhsNonContracting by decide)]
  rfl
/-- Entry `(p, n)` of the product is row `p` of the left factor against column `n` of the right, summed over the 256 entries. -/
theorem prodW_apply (a : FVec Ideal S4096x256 .f32) (b : FVec Ideal S256x768 .f32) (p : Fin 4096) (n : Fin 768) :
    matmul dot_S4096x256_S256x768_S4096x768_1_0_0_1_n_n none a b (constant (F := Ideal) S4096x768 .f32 0x00000000#32) (ix2 p n)
      = ∑ k : Fin 256, a (ix2 p k) * b (ix2 k n) := by
  show FloatOps.matmul dot_S4096x256_S256x768_S4096x768_1_0_0_1_n_n none a b (constant (F := Ideal) S4096x768 .f32 0x00000000#32) (ix2 p n) = _
  rw [Ideal.matmul_constant_zero_apply, ← Equiv.sum_comp (ValueIdx.contrEquiv1 dot_S4096x256_S256x768_S4096x768_1_0_0_1_n_n 256 rfl rfl).symm]
  refine Finset.sum_congr rfl fun k _ => ?_
  have hk := ValueIdx.contrEquiv1_symm_val dot_S4096x256_S256x768_S4096x768_1_0_0_1_n_n 256 rfl rfl k
  have el : dot_S4096x256_S256x768_S4096x768_1_0_0_1_n_n.lhsIdx (ix2 p n) ((ValueIdx.contrEquiv1 dot_S4096x256_S256x768_S4096x768_1_0_0_1_n_n 256 rfl rfl).symm k) = ix2 p k := funext fun ax => Fin.ext (by
    match ax with
    | ⟨0, _⟩ => exact lhsW_0 _ _
    | ⟨1, _⟩ => exact (lhsW_1 _ _).trans hk)
  have er : dot_S4096x256_S256x768_S4096x768_1_0_0_1_n_n.rhsIdx (ix2 p n) ((ValueIdx.contrEquiv1 dot_S4096x256_S256x768_S4096x768_1_0_0_1_n_n 256 rfl rfl).symm k) = ix2 k n := funext fun ax => Fin.ext (by
    match ax with
    | ⟨0, _⟩ => exact (rhsW_0 _ _).trans hk
    | ⟨1, _⟩ => exact rhsW_1 _ _)
  rw [el, er]

/-! The product into 512 columns: its four index facts, axis by axis, then the sum. -/
theorem lhsU_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
theorem lhsU_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
theorem rhsU_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
theorem rhsU_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl
/-- Entry `(p, n)` of the product is row `p` of the left factor against column `n` of the right, summed over the 256 entries. -/
theorem prodU_apply (a : FVec Ideal S4096x256 .f32) (b : FVec Ideal S256x512 .f32) (p : Fin 4096) (n : Fin 512) :
    matmul dot_S4096x256_S256x512_S4096x512_1_0_0_1_n_n none a b (constant (F := Ideal) S4096x512 .f32 0x00000000#32) (ix2 p n)
      = ∑ k : Fin 256, a (ix2 p k) * b (ix2 k n) := by
  show FloatOps.matmul dot_S4096x256_S256x512_S4096x512_1_0_0_1_n_n none a b (constant (F := Ideal) S4096x512 .f32 0x00000000#32) (ix2 p n) = _
  rw [Ideal.matmul_constant_zero_apply, ← Equiv.sum_comp (ValueIdx.contrEquiv1 dot_S4096x256_S256x512_S4096x512_1_0_0_1_n_n 256 rfl rfl).symm]
  refine Finset.sum_congr rfl fun k _ => ?_
  have hk := ValueIdx.contrEquiv1_symm_val dot_S4096x256_S256x512_S4096x512_1_0_0_1_n_n 256 rfl rfl k
  have el : dot_S4096x256_S256x512_S4096x512_1_0_0_1_n_n.lhsIdx (ix2 p n) ((ValueIdx.contrEquiv1 dot_S4096x256_S256x512_S4096x512_1_0_0_1_n_n 256 rfl rfl).symm k) = ix2 p k := funext fun ax => Fin.ext (by
    match ax with
    | ⟨0, _⟩ => exact lhsU_0 _ _
    | ⟨1, _⟩ => exact (lhsU_1 _ _).trans hk)
  have er : dot_S4096x256_S256x512_S4096x512_1_0_0_1_n_n.rhsIdx (ix2 p n) ((ValueIdx.contrEquiv1 dot_S4096x256_S256x512_S4096x512_1_0_0_1_n_n 256 rfl rfl).symm k) = ix2 k n := funext fun ax => Fin.ext (by
    match ax with
    | ⟨0, _⟩ => exact (rhsU_0 _ _).trans hk
    | ⟨1, _⟩ => exact rhsU_1 _ _)
  rw [el, er]

/-! The product into 256 columns: its four index facts, axis by axis, then the sum. -/
theorem lhsH_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsH_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsH_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsH_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- Entry `(p, n)` of the product is row `p` of the left factor against column `n` of the right, summed over the 256 entries. -/
theorem prodH_apply (a : FVec Ideal S4096x256 .f32) (b : FVec Ideal S256x256 .f32) (p : Fin 4096) (n : Fin 256) :
    matmul dot_S4096x256_S256x256_S4096x256_1_0_0_1_n_n none a b (constant (F := Ideal) S4096x256 .f32 0x00000000#32) (ix2 p n)
      = ∑ k : Fin 256, a (ix2 p k) * b (ix2 k n) := by
  show FloatOps.matmul dot_S4096x256_S256x256_S4096x256_1_0_0_1_n_n none a b (constant (F := Ideal) S4096x256 .f32 0x00000000#32) (ix2 p n) = _
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p n) ((ValueIdx.contrEquiv1 dot_S4096x256_S256x256_S4096x256_1_0_0_1_n_n 256 rfl rfl).symm k) = ix2 p k := funext fun ax => Fin.ext (by
    match ax with
    | ⟨0, _⟩ => exact lhsH_0 _ _
    | ⟨1, _⟩ => exact (lhsH_1 _ _).trans hk)
  have er : dot_S4096x256_S256x256_S4096x256_1_0_0_1_n_n.rhsIdx (ix2 p n) ((ValueIdx.contrEquiv1 dot_S4096x256_S256x256_S4096x256_1_0_0_1_n_n 256 rfl rfl).symm k) = ix2 k n := funext fun ax => Fin.ext (by
    match ax with
    | ⟨0, _⟩ => exact (rhsH_0 _ _).trans hk
    | ⟨1, _⟩ => exact rhsH_1 _ _)
  rw [el, er]

/-! ## The pointwise functions and the column cuts at an entry -/

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The first 512 of 768 columns. -/
theorem cut768_0 (G : FVec Ideal S4096x768 .f32) (p : Fin 4096) (n : Fin 512) :
    extractStridedSlice S4096x512 ![0, 0] G slices_S4096x768_o0_0_S4096x512 (ix2 p n) = G (ix2 p (e0 n)) :=
  slice2_axis1_apply 0 G slices_S4096x768_o0_0_S4096x512 p n (e0 n) (Nat.zero_add _).symm
/-- Columns 512 … 767 of 768. -/
theorem cut768_2 (G : FVec Ideal S4096x768 .f32) (p : Fin 4096) (n : Fin 256) :
    extractStridedSlice S4096x256 ![0, 512] G slices_S4096x768_o0_512_S4096x256 (ix2 p n) = G (ix2 p (c2 n)) :=
  slice2_axis1_apply 512 G slices_S4096x768_o0_512_S4096x256 p n (c2 n) rfl
/-- The first and the second 256 of 512 columns. -/
theorem cut512_0 (Z : FVec Ideal S4096x512 .f32) (p : Fin 4096) (n : Fin 256) :
    extractStridedSlice S4096x256 ![0, 0] Z slices_S4096x512_o0_0_S4096x256 (ix2 p n) = Z (ix2 p (d0 n)) :=
  slice2_axis1_apply 0 Z slices_S4096x512_o0_0_S4096x256 p n (d0 n) (Nat.zero_add _).symm
theorem cut512_1 (Z : FVec Ideal S4096x512 .f32) (p : Fin 4096) (n : Fin 256) :
    extractStridedSlice S4096x256 ![0, 256] Z slices_S4096x512_o0_256_S4096x256 (ix2 p n) = Z (ix2 p (d1 n)) :=
  slice2_axis1_apply 256 Z slices_S4096x512_o0_256_S4096x256 p n (d1 n) rfl

/-! ## The body's value in named pieces -/

/-- `x` times `[Wz | Wr | Wh]`. -/
def gxV (x : FVec Ideal S4096x256 .f32) (W : FVec Ideal S256x768 .f32) : FVec Ideal S4096x768 .f32 :=
  matmul dot_S4096x256_S256x768_S4096x768_1_0_0_1_n_n none x W (constant (F := Ideal) S4096x768 .f32 0x00000000#32)
/-- `h` times `[Uz | Ur]`. -/
def ghV (h : FVec Ideal S4096x256 .f32) (U : FVec Ideal S256x512 .f32) : FVec Ideal S4096x512 .f32 :=
  matmul dot_S4096x256_S256x512_S4096x512_1_0_0_1_n_n none h U (constant (F := Ideal) S4096x512 .f32 0x00000000#32)
/-- Both gates side by side: `[z | r]`. -/
def zrV (x h : FVec Ideal S4096x256 .f32) (W : FVec Ideal S256x768 .f32) (U : FVec Ideal S256x512 .f32) (bzr : FVec Ideal S1x512 .f32) :
    FVec Ideal S4096x512 .f32 :=
  logistic (addf (addf (extractStridedSlice S4096x512 ![0, 0] (gxV x W) slices_S4096x768_o0_0_S4096x512) (ghV h U))
    (broadcastTo S4096x512 bzr broadcasts_S1x512_S4096x512))
/-- The candidate. -/
def candV (x h : FVec Ideal S4096x256 .f32) (W : FVec Ideal S256x768 .f32) (U : FVec Ideal S256x512 .f32) (Uh : FVec Ideal S256x256 .f32)
    (bzr : FVec Ideal S1x512 .f32) (bh : FVec Ideal S1x256 .f32) : FVec Ideal S4096x256 .f32 :=
  tanh (addf (addf (extractStridedSlice S4096x256 ![0, 512] (gxV x W) slices_S4096x768_o0_512_S4096x256)
      (matmul dot_S4096x256_S256x256_S4096x256_1_0_0_1_n_n none
        (mulf (extractStridedSlice S4096x256 ![0, 256] (zrV x h W U bzr) slices_S4096x512_o0_256_S4096x256) h) Uh
        (constant (F := Ideal) S4096x256 .f32 0x00000000#32)))
    (broadcastTo S4096x256 bh broadcasts_S1x256_S4096x256))

/-- The stored value is the blend of `h` and the candidate by the update gate (the body's four casts of an array to its
    own shape are the identity). -/
theorem pay_eq (x h : FVec Ideal S4096x256 .f32) (W : FVec Ideal S256x768 .f32) (U : FVec Ideal S256x512 .f32) (Uh : FVec Ideal S256x256 .f32)
    (bzr : FVec Ideal S1x512 .f32) (bh : FVec Ideal S1x256 .f32) :
    k0_pay1 (F := Ideal) x h W U Uh bzr bh
      = addf (mulf (extractStridedSlice S4096x256 ![0, 0] (zrV x h W U bzr) slices_S4096x512_o0_0_S4096x256) h)
          (mulf (subf (broadcast S4096x256 (Scalar.ofBits (F := Ideal) .f32 0x3F800000#32))
              (extractStridedSlice S4096x256 ![0, 0] (zrV x h W U bzr) slices_S4096x512_o0_0_S4096x256))
            (candV x h W U Uh bzr bh)) := by
  unfold k0_pay1 candV zrV ghV gxV
  simp only [shapeCast_self]

/-! ## The pieces at an entry -/

theorem zrV_apply (x h : FVec Ideal S4096x256 .f32) (W : FVec Ideal S256x768 .f32) (U : FVec Ideal S256x512 .f32) (bzr : FVec Ideal S1x512 .f32)
    (p : Fin 4096) (n : Fin 512) :
    zrV x h W U bzr (ix2 p n)
      = Ideal.logistic ((∑ k : Fin 256, x (ix2 p k) * W (ix2 k (e0 n)) + ∑ k : Fin 256, h (ix2 p k) * U (ix2 k n)) + bzr (ix2 (0 : Fin 1) n)) := by
  unfold zrV gxV ghV
  rw [logistic_at, addf_apply, addf_apply, cut768_0, prodW_apply, prodU_apply, broadcastTo_1b_ab_apply]

theorem candV_apply (x h : FVec Ideal S4096x256 .f32) (W : FVec Ideal S256x768 .f32) (U : FVec Ideal S256x512 .f32) (Uh : FVec Ideal S256x256 .f32)
    (bzr : FVec Ideal S1x512 .f32) (bh : FVec Ideal S1x256 .f32) (p : Fin 4096) (q : Fin 256) :
    candV x h W U Uh bzr bh (ix2 p q)
      = Ideal.tanh ((∑ k : Fin 256, x (ix2 p k) * W (ix2 k (c2 q))
          + ∑ k : Fin 256, (zrV x h W U bzr (ix2 p (d1 k)) * h (ix2 p k)) * Uh (ix2 k q)) + bh (ix2 (0 : Fin 1) q)) := by
  unfold candV gxV
  rw [tanh_at, addf_apply, addf_apply, cut768_2, prodW_apply, prodH_apply, broadcastTo_1b_ab_apply]
  simp only [mulf_apply, cut512_1]

/-- THE STORED VALUE at row `p`, column `q`: the cell of row `p` of the two blocks, its weights and biases the panels of
    the fused arrays. -/
theorem pay_apply (x h : FVec Ideal S4096x256 .f32) (W : FVec Ideal S256x768 .f32) (U : FVec Ideal S256x512 .f32) (Uh : FVec Ideal S256x256 .f32)
    (bzr : FVec Ideal S1x512 .f32) (bh : FVec Ideal S1x256 .f32) (p : Fin 4096) (q : Fin 256) :
    k0_pay1 (F := Ideal) x h W U Uh bzr bh (ix2 p q)
      = cell (fun k => x (ix2 p k)) (fun k => h (ix2 p k))
          (fun k n => W (ix2 k (c0 n))) (fun k n => U (ix2 k (d0 n))) (fun k n => W (ix2 k (c1 n))) (fun k n => U (ix2 k (d1 n)))
          (fun k n => W (ix2 k (c2 n))) (fun k n => Uh (ix2 k n))
          (fun n => bzr (ix2 (0 : Fin 1) (d0 n))) (fun n => bzr (ix2 (0 : Fin 1) (d1 n))) (fun n => bh (ix2 (0 : Fin 1) n)) q := by
  rw [pay_eq, addf_apply, mulf_apply, mulf_apply, subf_apply, broadcast_apply, cut512_0, candV_apply]
  simp only [zrV_apply]
  rw [show Scalar.ofBits (F := Ideal) .f32 0x3F800000#32 = (1 : EReal) from Ideal.ofBits_one_f32]
  rfl

end Cert.KernelIdeal.CellValue

end
-- ==== Proof.LibNary3.lean ====
/-
  A host operation over a literal family of THREE references (a concatenation of three pieces): what it writes,
  with each operand's contents read at its own reference.

  For a family `xs` of operand references the general statement reads the operands as `fun k => F (xs k)`; under that
  binder the reference `![x, a, b] k` is not a literal, so a fold over a list of operations cannot be computed past
  it. Here the family is spelt out, `Fin.cons (F x) (Fin.cons (F a) (Fin.cons (F b) …))`, so that the operands'
  contents can themselves be rewritten; at the literals `0, 1, 2` the `Fin.cons` reduces by computation. The library
  states the same for four references; this is its statement for three.
-/
import Idealize.ShloMosaic.Lib.StableHlo.Run

namespace Idealize.ShloMosaic.StableHlo

variable {nD : Nat} {τ : Topo} {sig : RefSig} {Val : EltTy → Type}
variable {x a b y : Ref sig .tc}

/-- The result buffer of a three-operand operation holds `f` of the three operands' contents, each at its reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference kept out of the simplifier's index, as the library's one-pass forms are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The fold of a literal list of host operations computed in one simplifier pass, a three-operand operation read
    operand by operand (the general-family form is left out: it would stop the pass at such an operation). -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-! ## Entering a concatenation's operand list

`concatenate`'s side condition is stated over the operand list, so the simplifier cannot rewrite an operand inside
the list; but the condition depends on the operands' SHAPES only, so for a list of two or of three pieces of fixed
shapes a congruence holds with the same side condition on both sides. Tagged `congr` (locally, by the module that
needs them) they let one simplifier pass compute a fold through a concatenation of computed pieces. -/

/-- Two concatenations of two pieces of the same shapes agree when the pieces agree. -/
theorem concat2_congr {α : Type} (t : Shape) (a : Fin t.rank) (S0 S1 : Shape) {A A' : S0.Idx → α} {B B' : S1.Idx → α}
    (h : Shape.Concatenates [S0, S1] t a) (hA : A = A') (hB : B = B') :
    concatenate t a [⟨S0, A⟩, ⟨S1, B⟩] h = concatenate t a [⟨S0, A'⟩, ⟨S1, B'⟩] h := by
  subst hA hB; rfl

/-- The same for three pieces. -/
theorem concat3_congr {α : Type} (t : Shape) (a : Fin t.rank) (S0 S1 S2 : Shape) {A A' : S0.Idx → α} {B B' : S1.Idx → α} {C C' : S2.Idx → α}
    (h : Shape.Concatenates [S0, S1, S2] t a) (hA : A = A') (hB : B = B') (hC : C = C') :
    concatenate t a [⟨S0, A⟩, ⟨S1, B⟩, ⟨S2, C⟩] h = concatenate t a [⟨S0, A'⟩, ⟨S1, B'⟩, ⟨S2, C'⟩] h := by
  subst hA hB hC; rfl

end Idealize.ShloMosaic.StableHlo
-- ==== Proof.KernelValue.lean ====
/-
  The idealized kernel's result array after the run is the GRU cell of the eleven arguments.

  Point `t` of the 16 writes back rows `4096 t … 4096 t + 4095` of the result. There the body has read the same rows of
  `x` and of `h`, and — at every point alike — the whole of the four arrays the host laid out before the launch and of
  `Uh`. Panel 0, 1, 2 of `[Wz | Wr | Wh]` is `Wz`, `Wr`, `Wh`; panel 0, 1 of `[Uz | Ur]` is `Uz`, `Ur`; the 1 × 512 bias row is
  `bz` then `br`; the 1 × 256 row is `bh`. So what the body stores at row `p`, column `q` of its block (the cell over
  the panels of the fused arrays) is the cell of row `4096 t + p` of `x` and `h` over the eleven arguments themselves:
  block `t` of one whole-array function. The sixteen blocks tile the 65536 rows (row `r` lies in block `r / 4096`), so the
  result array ends holding that function everywhere.
-/
import proofs.«423816_j44367012168293_3_alg».proof.Proof.RegionIdeal
import proofs.«423816_j44367012168293_3_alg».proof.Proof.KernelCell
import proofs.«423816_j44367012168293_3_alg».proof.Proof.LibNary3
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.Region Cert.KernelIdeal.CellValue
open Idealize.ShloMosaic Idealize.ShloMosaic.TcCoe Idealize.SL.Sem Idealize.ShloMosaic.ValueIdx Idealize.ShloMosaic.StableHlo Cert.Gru
open Idealize.ShloMosaic.Pipeline (Dat)

variable (m : (ℓ : Loc nD τ sig) → Buf (Elt Ideal) ℓ) (ρ : Dev nD → PrngReg)

/-! ## The four arrays the host lays out, as the region finds them -/

attribute [local congr] concat2_congr concat3_congr

/-- `[Wz | Wr | Wh]`. -/
theorem wall_eq (c : Dev nD) : (V m c main_v0 : S256x768.Idx → EReal) =
    concatenate S256x768 1 [⟨S256x256, m ((c : Thread nD τ).loc main_arg2)⟩, ⟨S256x256, m ((c : Thread nD τ).loc main_arg5)⟩,
      ⟨S256x256, m ((c : Thread nD τ).loc main_arg8)⟩] concatenates_S256x256_S256x256_S256x256_S256x768_d1 := by
  dsimp only [Region.V, hostOps0]
  after_results_simp3
  rfl

/-- `[Uz | Ur]`. -/
theorem uzr_eq (c : Dev nD) : (V m c main_v1 : S256x512.Idx → EReal) =
    concatenate S256x512 1 [⟨S256x256, m ((c : Thread nD τ).loc main_arg3)⟩, ⟨S256x256, m ((c : Thread nD τ).loc main_arg6)⟩]
      concatenates_S256x256_S256x256_S256x512_d1 := by
  dsimp only [Region.V, hostOps0]
  after_results_simp3

/-- `[bz | br]` as one row. -/
theorem bzr_eq (c : Dev nD) : (V m c main_v3 : S1x512.Idx → EReal) =
    shapeCast S1x512 (concatenate S512 0 [⟨S256, m ((c : Thread nD τ).loc main_arg4)⟩, ⟨S256, m ((c : Thread nD τ).loc main_arg7)⟩]
      concatenates_S256_S256_S512_d0) shapeCasts_S512_S1x512 := by
  dsimp only [Region.V, hostOps0]
  after_results_simp3
  rfl

/-- `bh` as one row. -/
theorem bhrow_eq (c : Dev nD) : (V m c main_v4 : S1x256.Idx → EReal) =
    shapeCast S1x256 (m ((c : Thread nD τ).loc main_arg10)) shapeCasts_S256_S1x256 := by
  dsimp only [Region.V, hostOps0]
  after_results_simp3
  rfl

/-! ## A fused array's panels, at an entry -/

section Panels
variable {α : Type}

theorem panel3_0 (A B C : S256x256.Idx → α) (k n : Fin 256) :
    concatenate S256x768 1 [⟨S256x256, A⟩, ⟨S256x256, B⟩, ⟨S256x256, C⟩] concatenates_S256x256_S256x256_S256x256_S256x768_d1 (ix2 k (c0 n))
      = A (ix2 k n) :=
  concatenate_apply_piece (1 : Fin S256x768.rank) _ _ (ix2 k (c0 n)) 0 (by show (0 : Nat) < 3; omega) S256x256 A rfl rfl 0 rfl (ix2 k n)
    (fun b hb => by match b with | ⟨0, _⟩ => rfl | ⟨1, _⟩ => exact absurd rfl hb) (Nat.zero_add _)
theorem panel3_1 (A B C : S256x256.Idx → α) (k n : Fin 256) :
    concatenate S256x768 1 [⟨S256x256, A⟩, ⟨S256x256, B⟩, ⟨S256x256, C⟩] concatenates_S256x256_S256x256_S256x256_S256x768_d1 (ix2 k (c1 n))
      = B (ix2 k n) :=
  concatenate_apply_piece (1 : Fin S256x768.rank) _ _ (ix2 k (c1 n)) 1 (by show (1 : Nat) < 3; omega) S256x256 B rfl rfl 256 rfl (ix2 k n)
    (fun b hb => by match b with | ⟨0, _⟩ => rfl | ⟨1, _⟩ => exact absurd rfl hb) rfl
theorem panel3_2 (A B C : S256x256.Idx → α) (k n : Fin 256) :
    concatenate S256x768 1 [⟨S256x256, A⟩, ⟨S256x256, B⟩, ⟨S256x256, C⟩] concatenates_S256x256_S256x256_S256x256_S256x768_d1 (ix2 k (c2 n))
      = C (ix2 k n) :=
  concatenate_apply_piece (1 : Fin S256x768.rank) _ _ (ix2 k (c2 n)) 2 (by show (2 : Nat) < 3; omega) S256x256 C rfl rfl 512 rfl (ix2 k n)
    (fun b hb => by match b with | ⟨0, _⟩ => rfl | ⟨1, _⟩ => exact absurd rfl hb) rfl
theorem panel2_0 (A B : S256x256.Idx → α) (k n : Fin 256) :
    concatenate S256x512 1 [⟨S256x256, A⟩, ⟨S256x256, B⟩] concatenates_S256x256_S256x256_S256x512_d1 (ix2 k (d0 n)) = A (ix2 k n) :=
  concatenate_apply_piece (1 : Fin S256x512.rank) _ _ (ix2 k (d0 n)) 0 (by show (0 : Nat) < 2; omega) S256x256 A rfl rfl 0 rfl (ix2 k n)
    (fun b hb => by match b with | ⟨0, _⟩ => rfl | ⟨1, _⟩ => exact absurd rfl hb) (Nat.zero_add _)
theorem panel2_1 (A B : S256x256.Idx → α) (k n : Fin 256) :
    concatenate S256x512 1 [⟨S256x256, A⟩, ⟨S256x256, B⟩] concatenates_S256x256_S256x256_S256x512_d1 (ix2 k (d1 n)) = B (ix2 k n) :=
  concatenate_apply_piece (1 : Fin S256x512.rank) _ _ (ix2 k (d1 n)) 1 (by show (1 : Nat) < 2; omega) S256x256 B rfl rfl 256 rfl (ix2 k n)
    (fun b hb => by match b with | ⟨0, _⟩ => rfl | ⟨1, _⟩ => exact absurd rfl hb) rfl
theorem half_0 (A B : S256.Idx → α) (n : Fin 256) :
    concatenate S512 0 [⟨S256, A⟩, ⟨S256, B⟩] concatenates_S256_S256_S512_d0 (ix1 (d0 n)) = A (ix1 n) :=
  concatenate_apply_piece (0 : Fin S512.rank) _ _ (ix1 (d0 n)) 0 (by show (0 : Nat) < 2; omega) S256 A rfl rfl 0 rfl (ix1 n)
    (fun b hb => by match b with | ⟨0, _⟩ => exact absurd rfl hb) (Nat.zero_add _)
theorem half_1 (A B : S256.Idx → α) (n : Fin 256) :
    concatenate S512 0 [⟨S256, A⟩, ⟨S256, B⟩] concatenates_S256_S256_S512_d0 (ix1 (d1 n)) = B (ix1 n) :=
  concatenate_apply_piece (0 : Fin S512.rank) _ _ (ix1 (d1 n)) 1 (by show (1 : Nat) < 2; omega) S256 B rfl rfl 256 rfl (ix1 n)
    (fun b hb => by match b with | ⟨0, _⟩ => exact absurd rfl hb) rfl

end Panels

/-! ## The seven blocks the body reads at point `t` -/

/-- Where each window's block sits at point `t`: the two row-block windows and the output at block `(t, 0)`, the five
    whole-array windows at block `(0, 0)` (decided over the sixteen points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := by
  have h := t.isLt; have e : cfg0.N = 16 := N_0; omega

/-- Row `p` of block `t` is row `4096 t + p` of the array. -/
def rowOf (t : Fin cfg0.N) (p : Fin 4096) : Fin 65536 := ⟨t.val * 4096 + p.val, by have := t_lt t; have := p.isLt; omega⟩

abbrev xblk (c : Dev nD) (t : Fin cfg0.N) : FVec Ideal S4096x256 .f32 := iblk m c 0 t
abbrev hblk (c : Dev nD) (t : Fin cfg0.N) : FVec Ideal S4096x256 .f32 := iblk m c 1 t
abbrev wblk (c : Dev nD) (t : Fin cfg0.N) : FVec Ideal S256x768 .f32 := iblk m c 2 t
abbrev ublk (c : Dev nD) (t : Fin cfg0.N) : FVec Ideal S256x512 .f32 := iblk m c 3 t
abbrev uhblk (c : Dev nD) (t : Fin cfg0.N) : FVec Ideal S256x256 .f32 := iblk m c 4 t
abbrev bzrblk (c : Dev nD) (t : Fin cfg0.N) : FVec Ideal S1x512 .f32 := iblk m c 5 t
abbrev bhblk (c : Dev nD) (t : Fin cfg0.N) : FVec Ideal S1x256 .f32 := iblk m c 6 t

/-- Block `t` of `x`. -/
theorem xblk_at (c : Dev nD) (t : Fin cfg0.N) (p : Fin 4096) (k : Fin 256) :
    xblk m c t (ix2 p k) = (m ((c : Thread nD τ).loc main_arg0) : S65536x256.Idx → EReal) (ix2 (rowOf t p) k) := by
  have e := idx_facts t
  show iblk m c 0 t (ix2 p k) = _
  unfold iblk
  rw [View.read_apply]
  show V m c main_arg0 _ = m ((c : Thread nD τ).loc main_arg0) _
  rw [V_main_arg0]
  congr 1
  funext ax
  apply Fin.ext
  match ax with
  | ⟨0, _⟩ => show win0_0.index t (0 : Fin 2) * 4096 + 1 * p.val = t.val * 4096 + p.val; omega
  | ⟨1, _⟩ => show win0_0.index t (1 : Fin 2) * 256 + 1 * k.val = k.val; omega
/-- Block `t` of `h`. -/
theorem hblk_at (c : Dev nD) (t : Fin cfg0.N) (p : Fin 4096) (k : Fin 256) :
    hblk m c t (ix2 p k) = (m ((c : Thread nD τ).loc main_arg1) : S65536x256.Idx → EReal) (ix2 (rowOf t p) k) := by
  have e := idx_facts t
  show iblk m c 1 t (ix2 p k) = _
  unfold iblk
  rw [View.read_apply]
  show V m c main_arg1 _ = m ((c : Thread nD τ).loc main_arg1) _
  rw [V_main_arg1]
  congr 1
  funext ax
  apply Fin.ext
  match ax with
  | ⟨0, _⟩ => show win0_1.index t (0 : Fin 2) * 4096 + 1 * p.val = t.val * 4096 + p.val; omega
  | ⟨1, _⟩ => show win0_1.index t (1 : Fin 2) * 256 + 1 * k.val = k.val; omega
/-- The whole of `[Wz | Wr | Wh]`, at every point. -/
theorem wblk_at (c : Dev nD) (t : Fin cfg0.N) (k : Fin 256) (n : Fin 768) :
    wblk m c t (ix2 k n) = (V m c main_v0 : S256x768.Idx → EReal) (ix2 k n) := by
  have e := idx_facts t
  show iblk m c 2 t (ix2 k n) = _
  unfold iblk
  rw [View.read_apply]
  show V m c main_v0 _ = V m c main_v0 _
  congr 1
  funext ax
  apply Fin.ext
  match ax with
  | ⟨0, _⟩ => show win0_2.index t (0 : Fin 2) * 256 + 1 * k.val = k.val; omega
  | ⟨1, _⟩ => show win0_2.index t (1 : Fin 2) * 768 + 1 * n.val = n.val; omega
/-- The whole of `[Uz | Ur]`, at every point. -/
theorem ublk_at (c : Dev nD) (t : Fin cfg0.N) (k : Fin 256) (n : Fin 512) :
    ublk m c t (ix2 k n) = (V m c main_v1 : S256x512.Idx → EReal) (ix2 k n) := by
  have e := idx_facts t
  show iblk m c 3 t (ix2 k n) = _
  unfold iblk
  rw [View.read_apply]
  show V m c main_v1 _ = V m c main_v1 _
  congr 1
  funext ax
  apply Fin.ext
  match ax with
  | ⟨0, _⟩ => show win0_3.index t (0 : Fin 2) * 256 + 1 * k.val = k.val; omega
  | ⟨1, _⟩ => show win0_3.index t (1 : Fin 2) * 512 + 1 * n.val = n.val; omega
/-- The whole of `Uh`, at every point. -/
theorem uhblk_at (c : Dev nD) (t : Fin cfg0.N) (k : Fin 256) (n : Fin 256) :
    uhblk m c t (ix2 k n) = (V m c main_arg9 : S256x256.Idx → EReal) (ix2 k n) := by
  have e := idx_facts t
  show iblk m c 4 t (ix2 k n) = _
  unfold iblk
  rw [View.read_apply]
  show V m c main_arg9 _ = V m c main_arg9 _
  congr 1
  funext ax
  apply Fin.ext
  match ax with
  | ⟨0, _⟩ => show win0_4.index t (0 : Fin 2) * 256 + 1 * k.val = k.val; omega
  | ⟨1, _⟩ => show win0_4.index t (1 : Fin 2) * 256 + 1 * n.val = n.val; omega
/-- The whole bias row `[bz | br]`, at every point. -/
theorem bzrblk_at (c : Dev nD) (t : Fin cfg0.N) (k : Fin 1) (n : Fin 512) :
    bzrblk m c t (ix2 k n) = (V m c main_v3 : S1x512.Idx → EReal) (ix2 k n) := by
  have e := idx_facts t
  show iblk m c 5 t (ix2 k n) = _
  unfold iblk
  rw [View.read_apply]
  show V m c main_v3 _ = V m c main_v3 _
  congr 1
  funext ax
  apply Fin.ext
  match ax with
  | ⟨0, _⟩ => show win0_5.index t (0 : Fin 2) * 1 + 1 * k.val = k.val; omega
  | ⟨1, _⟩ => show win0_5.index t (1 : Fin 2) * 512 + 1 * n.val = n.val; omega
/-- The whole bias row `bh`, at every point. -/
theorem bhblk_at (c : Dev nD) (t : Fin cfg0.N) (k : Fin 1) (n : Fin 256) :
    bhblk m c t (ix2 k n) = (V m c main_v4 : S1x256.Idx → EReal) (ix2 k n) := by
  have e := idx_facts t
  show iblk m c 6 t (ix2 k n) = _
  unfold iblk
  rw [View.read_apply]
  show V m c main_v4 _ = V m c main_v4 _
  congr 1
  funext ax
  apply Fin.ext
  match ax with
  | ⟨0, _⟩ => show win0_6.index t (0 : Fin 2) * 1 + 1 * k.val = k.val; omega
  | ⟨1, _⟩ => show win0_6.index t (1 : Fin 2) * 256 + 1 * n.val = n.val; omega

/-! ## What point `t` writes back -/

/-- The result: the cell of the eleven arguments as launched. -/
abbrev result (c : Dev nD) : Buf (Elt Ideal) ((c : Thread nD τ).loc main_v5) :=
  gru (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem hz : (![0, 0] : Fin 2 → Nat) = fun _ => 0 := funext fun a => by fin_cases a <;> rfl

/-- Entry `(p, q)` of the output's block at point `t` is entry `(4096 t + p, q)` of the array. -/
theorem out_emb (t : Fin cfg0.N) (p : Fin 4096) (q : Fin 256) :
    ((cfg0.win 7).blk t).view.emb (ix2 p q) = (ix2 (rowOf t p) q : S65536x256.Idx) := by
  have e := idx_facts t
  funext ax
  apply Fin.ext
  match ax with
  | ⟨0, _⟩ => show win0_7.index t (0 : Fin 2) * 4096 + 1 * p.val = t.val * 4096 + p.val; omega
  | ⟨1, _⟩ => show win0_7.index t (1 : Fin 2) * 256 + 1 * q.val = q.val; omega

/-- WHAT POINT `t` WRITES BACK is block `t` of the cell of the arguments. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after7]
  unfold stored
  rw [View.canon_unit_zero hz]
  simp only [View.ld_unit_zero (S := S4096x256) hz, View.ld_unit_zero (S := S256x768) hz, View.ld_unit_zero (S := S256x512) hz,
    View.ld_unit_zero (S := S256x256) hz, View.ld_unit_zero (S := S1x512) hz, View.ld_unit_zero (S := S1x256) hz]
  funext j
  obtain ⟨p, q, rfl⟩ : ∃ (p : Fin 4096) (q : Fin 256), j = ix2 p q := ⟨j 0, j 1, eq_ix2 j⟩
  show k0_pay1 (F := Ideal) (xblk m c t) (hblk m c t) (wblk m c t) (ublk m c t) (uhblk m c t) (bzrblk m c t) (bhblk m c t) (ix2 p q)
      = result m c (((cfg0.win 7).blk t).view.emb (ix2 p q))
  rw [pay_apply, out_emb]
  show _ = gru _ _ _ _ _ _ _ _ _ _ _ (ix2 (rowOf t p) q)
  rw [gru_apply]
  have hx : (fun k => xblk m c t (ix2 p k)) = fun k => (m ((c : Thread nD τ).loc main_arg0) : S65536x256.Idx → EReal) (ix2 (rowOf t p) k) :=
    funext (xblk_at m c t p)
  have hh : (fun k => hblk m c t (ix2 p k)) = fun k => (m ((c : Thread nD τ).loc main_arg1) : S65536x256.Idx → EReal) (ix2 (rowOf t p) k) :=
    funext (hblk_at m c t p)
  rw [hx, hh]
  refine cell_congr ?_ ?_ ?_ ?_ ?_ ?_ ?_ ?_ ?_ q
  · intro k n; exact (wblk_at m c t k (c0 n)).trans ((congrFun (wall_eq m c) _).trans (panel3_0 _ _ _ k n))
  · intro k n; exact (ublk_at m c t k (d0 n)).trans ((congrFun (uzr_eq m c) _).trans (panel2_0 _ _ k n))
  · intro k n; exact (wblk_at m c t k (c1 n)).trans ((congrFun (wall_eq m c) _).trans (panel3_1 _ _ _ k n))
  · intro k n; exact (ublk_at m c t k (d1 n)).trans ((congrFun (uzr_eq m c) _).trans (panel2_1 _ _ k n))
  · intro k n; exact (wblk_at m c t k (c2 n)).trans ((congrFun (wall_eq m c) _).trans (panel3_2 _ _ _ k n))
  · intro k n; exact (uhblk_at m c t k n).trans (congrFun (V_main_arg9 m c) _)
  · intro n; exact (bzrblk_at m c t 0 (d0 n)).trans ((congrFun (bzr_eq m c) _).trans
      ((shapeCast_a_1a_apply _ shapeCasts_S512_S1x512 0 (d0 n)).trans (half_0 _ _ n)))
  · intro n; exact (bzrblk_at m c t 0 (d1 n)).trans ((congrFun (bzr_eq m c) _).trans
      ((shapeCast_a_1a_apply _ shapeCasts_S512_S1x512 0 (d1 n)).trans (half_1 _ _ n)))
  · intro n; exact (bhblk_at m c t 0 n).trans ((congrFun (bhrow_eq m c) _).trans (shapeCast_a_1a_apply _ shapeCasts_S256_S1x256 0 n))

/-! ## The blocks tile the rows -/

theorem mem_blk (t : Fin cfg0.N) (i : S65536x256.Idx) :
    i ∈ ((cfg0.win 7).blk t).view.set ↔ ∀ a : Fin 2, win0_7.index t a * S4096x256.size a ≤ (i a).val
      ∧ (i a).val < win0_7.index t a * S4096x256.size a + S4096x256.size a := by
  show i ∈ ((View.whole main_v5).slice (win0_7.rect t)).set ↔ _
  rw [View.set_slice_whole, Rect.mem_set_unit]
  exact Iff.rfl

/-- Row `r` lies in block `r / 4096`. -/
theorem cover (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 16 := N_0
  let t : Fin cfg0.N := ⟨(i 0).val / 4096, by omega⟩
  have ht : t.val = (i 0).val / 4096 := rfl
  have e := idx_facts t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 256 ≤ (i 1).val ∧ (i 1).val < win0_7.index t (1 : Fin 2) * 256 + 256; omega

/-! ## The array after the run, and the run -/

theorem final (c : Dev nD) : (dats m 0 c).arrAt 7 cfg0.N = result m c :=
  (dats m 0 c).arrAt_eq_of_cover 7 (result m c) (fun t _ => flushed_eq m c t) cover

/-- Every weakly fair execution of the idealized kernel's program terminates with the result array at the cell of the
    arguments and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.RunValue

end
-- ==== Proof.RefIsGru.lean ====
/-
  The reference computes the GRU cell: its forty-two stages — six dot products, three biases spread over the rows,
  two logistic functions spelt out as `1 / (1 + e^(−a))`, a tanh and the blend — composed and read at an index are
  `Cert.Gru.gru` of the eleven arguments at that index.

  Each stage is read at an index by its own lemma; a dot product's two index maps are "row `i 0`, entry `k`" and
  "entry `k`, column `i 1`", a spread bias reads its vector at `i 1`. The one arithmetical fact used is that the word
  `0x3F800000` denotes the extended real `1`, which turns the spelt-out quotient into the logistic function.
-/
import proofs.«423816_j44367012168293_3_alg».proof.Proof.Gen.ReferenceIdeal.Read
import proofs.«423816_j44367012168293_3_alg».proof.Proof.GruSpec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Cert.Gru

/-! ## The stages' index maps, in coordinates

At row `a`, column `b`: a dot product reads its left factor at `(a, k)` and its right factor at `(k, b)`; a bias spread
over the rows is read at `b`. -/

theorem lidx0 (a : Fin 65536) (b k : Fin 256) : lidx_main_v0 (ix2 a b) k = ix2 a k :=
  funext fun ax => by match ax with | ⟨0, _⟩ => rfl | ⟨1, _⟩ => rfl
theorem ridx0 (a : Fin 65536) (b k : Fin 256) : ridx_main_v0 (ix2 a b) k = ix2 k b :=
  funext fun ax => by match ax with | ⟨0, _⟩ => rfl | ⟨1, _⟩ => rfl
theorem lidx1 (a : Fin 65536) (b k : Fin 256) : lidx_main_v1 (ix2 a b) k = ix2 a k :=
  funext fun ax => by match ax with | ⟨0, _⟩ => rfl | ⟨1, _⟩ => rfl
theorem ridx1 (a : Fin 65536) (b k : Fin 256) : ridx_main_v1 (ix2 a b) k = ix2 k b :=
  funext fun ax => by match ax with | ⟨0, _⟩ => rfl | ⟨1, _⟩ => rfl
theorem lidx12 (a : Fin 65536) (b k : Fin 256) : lidx_main_v12 (ix2 a b) k = ix2 a k :=
  funext fun ax => by match ax with | ⟨0, _⟩ => rfl | ⟨1, _⟩ => rfl
theorem ridx12 (a : Fin 65536) (b k : Fin 256) : ridx_main_v12 (ix2 a b) k = ix2 k b :=
  funext fun ax => by match ax with | ⟨0, _⟩ => rfl | ⟨1, _⟩ => rfl
theorem lidx13 (a : Fin 65536) (b k : Fin 256) : lidx_main_v13 (ix2 a b) k = ix2 a k :=
  funext fun ax => by match ax with | ⟨0, _⟩ => rfl | ⟨1, _⟩ => rfl
theorem ridx13 (a : Fin 65536) (b k : Fin 256) : ridx_main_v13 (ix2 a b) k = ix2 k b :=
  funext fun ax => by match ax with | ⟨0, _⟩ => rfl | ⟨1, _⟩ => rfl
theorem lidx24 (a : Fin 65536) (b k : Fin 256) : lidx_main_v24 (ix2 a b) k = ix2 a k :=
  funext fun ax => by match ax with | ⟨0, _⟩ => rfl | ⟨1, _⟩ => rfl
theorem ridx24 (a : Fin 65536) (b k : Fin 256) : ridx_main_v24 (ix2 a b) k = ix2 k b :=
  funext fun ax => by match ax with | ⟨0, _⟩ => rfl | ⟨1, _⟩ => rfl
theorem lidx26 (a : Fin 65536) (b k : Fin 256) : lidx_main_v26 (ix2 a b) k = ix2 a k :=
  funext fun ax => by match ax with | ⟨0, _⟩ => rfl | ⟨1, _⟩ => rfl
theorem ridx26 (a : Fin 65536) (b k : Fin 256) : ridx_main_v26 (ix2 a b) k = ix2 k b :=
  funext fun ax => by match ax with | ⟨0, _⟩ => rfl | ⟨1, _⟩ => rfl
theorem bias4 (a : Fin 65536) (b : Fin 256) : idx_main_v3 (idx_main_v4 (ix2 a b)) = ix1 b :=
  funext fun ax => by match ax with | ⟨0, _⟩ => rfl
theorem bias16 (a : Fin 65536) (b : Fin 256) : idx_main_v15 (idx_main_v16 (ix2 a b)) = ix1 b :=
  funext fun ax => by match ax with | ⟨0, _⟩ => rfl
theorem bias29 (a : Fin 65536) (b : Fin 256) : idx_main_v28 (idx_main_v29 (ix2 a b)) = ix1 b :=
  funext fun ax => by match ax with | ⟨0, _⟩ => rfl

/-! ## The reference's result is the cell -/

set_option maxHeartbeats 1000000 in
theorem result_eq (x0 x1 : (⟨S65536x256, .f32⟩ : BufTy).Contents (Elt Ideal)) (x2 x3 : (⟨S256x256, .f32⟩ : BufTy).Contents (Elt Ideal))
    (x4 : (⟨S256, .f32⟩ : BufTy).Contents (Elt Ideal)) (x5 x6 : (⟨S256x256, .f32⟩ : BufTy).Contents (Elt Ideal))
    (x7 : (⟨S256, .f32⟩ : BufTy).Contents (Elt Ideal)) (x8 x9 : (⟨S256x256, .f32⟩ : BufTy).Contents (Elt Ideal))
    (x10 : (⟨S256, .f32⟩ : BufTy).Contents (Elt Ideal)) :
    val_main_v36 (F := Ideal) x0 x1 x2 x3 x4 x5 x6 x7 x8 x9 x10 = gru x0 x1 x2 x3 x4 x5 x6 x7 x8 x9 x10 := by
  funext i
  obtain ⟨a, b, rfl⟩ : ∃ (a : Fin 65536) (b : Fin 256), i = ix2 a b := ⟨i 0, i 1, eq_ix2 i⟩
  rw [gru_apply]
  simp only [val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply,
    lidx0, ridx0, lidx1, ridx1, lidx12, ridx12, lidx13, ridx13, lidx24, ridx24, lidx26, ridx26, bias4, bias16, bias29,
    Ideal.ofBits_def, Ideal.ofBits_one_f32, Ideal.addf_def, Ideal.subf_def, Ideal.mulf_def, Ideal.hostDivf_def,
    Ideal.hostUnary_exp_def, Ideal.hostUnary_tanh_def, Ideal.hostNegf_def, Ideal.negf_def]
  rfl

end Cert.ReferenceIdeal.RefValue

end
-- ==== Proof.lean ====
/-
  A GRU cell — update and reset gates `σ(x·W + h·U + b)`, candidate `tanh(x·Wh + (r ∘ h)·Uh + bh)`, new state
  `z ∘ h + (1 − z) ∘ ĥ` — over 65536 rows of 256, computed by a kernel that fuses the six 256 × 256 products into three wide
  ones over `[Wz | Wr | Wh]` and `[Uz | Ur]` and tiles the rows in sixteen blocks of 4096, against the same cell written
  with six separate products.

  The frames: the kernel's program is five layout operations on the weights and biases, then one launch whose body
  reads seven blocks and stores one value over its output block; the launch theorem for such a region gives that it
  runs to the end with the eleven arguments as launched (Proof/RegionBits.lean at words, Proof/RegionIdeal.lean at the
  extended reals). The reference is a straight line of host operations, and its run is read back whole.

  The values, on the extended reals: a panel of a fused array is the weight it was laid out from, a matrix product
  into a zero accumulator is the plain sum, the logistic function is `1 / (1 + e^(−a))` on both sides and the word
  `0x3F800000` is `1`. With that, what grid point `t` writes back is block `t` of `Cert.Gru.gru` of the arguments
  (Proof/KernelCell.lean, Proof/KernelValue.lean), the blocks tile the rows, and the reference's forty-two stages compose
  to the same `gru` (Proof/RefIsGru.lean). Sums keep their order and grouping on both sides, so no law of arithmetic
  joins them and the precondition is never opened. The ideal pass rewrote nothing, so `preserves` asks nothing.
-/
import proofs.«423816_j44367012168293_3_alg».proof.Defs
import proofs.«423816_j44367012168293_3_alg».proof.Proof.Gen.Kernel
import proofs.«423816_j44367012168293_3_alg».proof.Proof.Gen.KernelIdeal
import proofs.«423816_j44367012168293_3_alg».proof.Proof.Gen.ReferenceIdeal
import proofs.«423816_j44367012168293_3_alg».proof.Proof.Gen.Pre_finite_inputs
import proofs.«423816_j44367012168293_3_alg».proof.Proof.Gen.ReferenceIdeal.Run
import proofs.«423816_j44367012168293_3_alg».proof.Proof.Gen.ReferenceIdeal.Read
import proofs.«423816_j44367012168293_3_alg».proof.Proof.RegionBits
import proofs.«423816_j44367012168293_3_alg».proof.Proof.RegionIdeal
import proofs.«423816_j44367012168293_3_alg».proof.Proof.KernelValue
import proofs.«423816_j44367012168293_3_alg».proof.Proof.RefIsGru

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

/-- The reference's run with its two (equal) results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs return the new hidden state twice; both copies are `gru` of the arguments, on which the two launch
    memories agree. -/
theorem algebraic : Cert.algebraic_KernelIdeal_ReferenceIdeal := by
  intro m ρ m' ρ' _ hagree
  refine ⟨fun c => Cert.KernelIdeal.RunValue.result m c, fun c => Cert.KernelIdeal.RunValue.result m c, ?_, ?_⟩
  · exact (θ_run Cert.KernelIdeal.defs _ _).mono (fun r h c => ⟨(h c).1, (h c).1, (h c).2⟩) (Cert.KernelIdeal.RunValue.run m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    have e : r.2.mem ((c.tc : Thread Cert.ReferenceIdeal.nD Cert.ReferenceIdeal.τ).loc Cert.ReferenceIdeal.main_v36)
        = Cert.KernelIdeal.RunValue.result m c := by
      rw [(h c).1, Cert.ReferenceIdeal.Read.val_main_v36_eq, Cert.ReferenceIdeal.RefValue.result_eq,
        a0, a1, a2, a3, a4, a5, a6, a7, a8, a9, a10]
    exact ⟨e, e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
